-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg10 : FVec F S128 .f32) (main_arg11 : FVec F S128x47 .f32) (main_arg12 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg11
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg12
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S300000x256 .f32) (main_arg1 : IVec S960000 32) (main_arg2 : IVec S960000 32) (main_arg3 : IVec S240000 32) (main_arg4 : IVec S240000 32) (main_arg5 : IVec S64000 32) (main_arg6 : IVec S64000 32) (main_arg7 : FVec F S256x128 .f32) (main_arg8 : FVec F S128 .f32) (main_arg9 : FVec F S128x128 .f32) (main_arg10 : FVec F S128 .f32) (main_arg11 : FVec F S128x47 .f32) (main_arg12 : FVec F S47 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x128 .f32 := Host.absf main_arg7
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_v13 main_v16
-- ==== Kernel.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩
abbrev S960000x1 : Shape := ⟨2, ![960000, 1]⟩
abbrev S960000x256 : Shape := ⟨2, ![960000, 256]⟩
abbrev S60000x256 : Shape := ⟨2, ![60000, 256]⟩
abbrev S60000 : Shape := ⟨1, ![60000]⟩
abbrev S60000x1 : Shape := ⟨2, ![60000, 1]⟩
abbrev S1x128 : Shape := ⟨2, ![1, 128]⟩
abbrev S60000x128 : Shape := ⟨2, ![60000, 128]⟩
abbrev S6000x256 : Shape := ⟨2, ![6000, 256]⟩
abbrev S6000x128 : Shape := ⟨2, ![6000, 128]⟩
abbrev S240000x1 : Shape := ⟨2, ![240000, 1]⟩
abbrev S240000x128 : Shape := ⟨2, ![240000, 128]⟩
abbrev S15000x128 : Shape := ⟨2, ![15000, 128]⟩
abbrev S15000 : Shape := ⟨1, ![15000]⟩
abbrev S15000x1 : Shape := ⟨2, ![15000, 1]⟩
abbrev S64000x1 : Shape := ⟨2, ![64000, 1]⟩
abbrev S64000x128 : Shape := ⟨2, ![64000, 128]⟩
abbrev S4000x128 : Shape := ⟨2, ![4000, 128]⟩
abbrev S4000 : Shape := ⟨1, ![4000]⟩
abbrev S4000x1 : Shape := ⟨2, ![4000, 1]⟩
abbrev S1x47 : Shape := ⟨2, ![1, 47]⟩
abbrev S4000x47 : Shape := ⟨2, ![4000, 47]⟩

abbrev nBuf : Space → Nat
  | .hbm => 94
  | .vmem => 14
  | .smem => 0
  | _ => 0

abbrev bufTy : (tb : Table) → Fin (tcTables nBuf tb) → BufTy
  | .hbm, ⟨0, _⟩ => ⟨S300000x256, .f32⟩
  | .hbm, ⟨1, _⟩ => ⟨S960000, .i32⟩
  | .hbm, ⟨2, _⟩ => ⟨S960000, .i32⟩
  | .hbm, ⟨3, _⟩ => ⟨S240000, .i32⟩
  | .hbm, ⟨4, _⟩ => ⟨S240000, .i32⟩
  | .hbm, ⟨5, _⟩ => ⟨S64000, .i32⟩
  | .hbm, ⟨6, _⟩ => ⟨S64000, .i32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x47, .f32⟩
  | .hbm, ⟨12, _⟩ => ⟨S47, .f32⟩
  | .hbm, ⟨13, _⟩ => ⟨S_, .i32⟩
  | .hbm, ⟨14, _⟩ => ⟨S960000, .i32⟩
  | .hbm, ⟨15, _⟩ => ⟨S960000, .i1⟩
  | .hbm, ⟨16, _⟩ => ⟨S_, .i32⟩
  | .hbm, ⟨17, _⟩ => ⟨S960000, .i32⟩
  | .hbm, ⟨18, _⟩ => ⟨S960000, .i32⟩
  | .hbm, ⟨19, _⟩ => ⟨S960000, .i32⟩
  | .hbm, ⟨20, _⟩ => ⟨S960000x1, .i32⟩
  | .hbm, ⟨21, _⟩ => ⟨S960000x256, .f32⟩
  | .hbm, ⟨22, _⟩ => ⟨S_, .f32⟩
  | .hbm, ⟨23, _⟩ => ⟨S60000x256, .f32⟩
  | .hbm, ⟨24, _⟩ => ⟨S960000x1, .i32⟩
  | .hbm, ⟨25, _⟩ => ⟨S60000x256, .f32⟩
  | .hbm, ⟨26, _⟩ => ⟨S_, .f32⟩
  | .hbm, ⟨27, _⟩ => ⟨S960000, .f32⟩
  | .hbm, ⟨28, _⟩ => ⟨S_, .f32⟩
  | .hbm, ⟨29, _⟩ => ⟨S60000, .f32⟩
  | .hbm, ⟨30, _⟩ => ⟨S960000x1, .i32⟩
  | .hbm, ⟨31, _⟩ => ⟨S60000, .f32⟩
  | .hbm, ⟨32, _⟩ => ⟨S_, .f32⟩
  | .hbm, ⟨33, _⟩ => ⟨S60000, .f32⟩
  | .hbm, ⟨34, _⟩ => ⟨S60000, .f32⟩
  | .hbm, ⟨35, _⟩ => ⟨S60000x1, .f32⟩
  | .hbm, ⟨36, _⟩ => ⟨S60000x256, .f32⟩
  | .hbm, ⟨37, _⟩ => ⟨S60000x256, .f32⟩
  | .hbm, ⟨38, _⟩ => ⟨S1x128, .f32⟩
  | .hbm, ⟨39, _⟩ => ⟨S60000x128, .f32⟩
  | .hbm, ⟨40, _⟩ => ⟨S_, .i32⟩
  | .hbm, ⟨41, _⟩ => ⟨S240000, .i32⟩
  | .hbm, ⟨42, _⟩ => ⟨S240000, .i1⟩
  | .hbm, ⟨43, _⟩ => ⟨S_, .i32⟩
  | .hbm, ⟨44, _⟩ => ⟨S240000, .i32⟩
  | .hbm, ⟨45, _⟩ => ⟨S240000, .i32⟩
  | .hbm, ⟨46, _⟩ => ⟨S240000, .i32⟩
  | .hbm, ⟨47, _⟩ => ⟨S240000x1, .i32⟩
  | .hbm, ⟨48, _⟩ => ⟨S240000x128, .f32⟩
  | .hbm, ⟨49, _⟩ => ⟨S_, .f32⟩
  | .hbm, ⟨50, _⟩ => ⟨S15000x128, .f32⟩
  | .hbm, ⟨51, _⟩ => ⟨S240000x1, .i32⟩
  | .hbm, ⟨52, _⟩ => ⟨S15000x128, .f32⟩
  | .hbm, ⟨53, _⟩ => ⟨S_, .f32⟩
  | .hbm, ⟨54, _⟩ => ⟨S240000, .f32⟩
  | .hbm, ⟨55, _⟩ => ⟨S_, .f32⟩
  | .hbm, ⟨56, _⟩ => ⟨S15000, .f32⟩
  | .hbm, ⟨57, _⟩ => ⟨S240000x1, .i32⟩
  | .hbm, ⟨58, _⟩ => ⟨S15000, .f32⟩
  | .hbm, ⟨59, _⟩ => ⟨S_, .f32⟩
  | .hbm, ⟨60, _⟩ => ⟨S15000, .f32⟩
  | .hbm, ⟨61, _⟩ => ⟨S15000, .f32⟩
  | .hbm, ⟨62, _⟩ => ⟨S15000x1, .f32⟩
  | .hbm, ⟨63, _⟩ => ⟨S15000x128, .f32⟩
  | .hbm, ⟨64, _⟩ => ⟨S15000x128, .f32⟩
  | .hbm, ⟨65, _⟩ => ⟨S1x128, .f32⟩
  | .hbm, ⟨66, _⟩ => ⟨S15000x128, .f32⟩
  | .hbm, ⟨67, _⟩ => ⟨S_, .i32⟩
  | .hbm, ⟨68, _⟩ => ⟨S64000, .i32⟩
  | .hbm, ⟨69, _⟩ => ⟨S64000, .i1⟩
  | .hbm, ⟨70, _⟩ => ⟨S_, .i32⟩
  | .hbm, ⟨71, _⟩ => ⟨S64000, .i32⟩
  | .hbm, ⟨72, _⟩ => ⟨S64000, .i32⟩
  | .hbm, ⟨73, _⟩ => ⟨S64000, .i32⟩
  | .hbm, ⟨74, _⟩ => ⟨S64000x1, .i32⟩
  | .hbm, ⟨75, _⟩ => ⟨S64000x128, .f32⟩
  | .hbm, ⟨76, _⟩ => ⟨S_, .f32⟩
  | .hbm, ⟨77, _⟩ => ⟨S4000x128, .f32⟩
  | .hbm, ⟨78, _⟩ => ⟨S64000x1, .i32⟩
  | .hbm, ⟨79, _⟩ => ⟨S4000x128, .f32⟩
  | .hbm, ⟨80, _⟩ => ⟨S_, .f32⟩
  | .hbm, ⟨81, _⟩ => ⟨S64000, .f32⟩
  | .hbm, ⟨82, _⟩ => ⟨S_, .f32⟩
  | .hbm, ⟨83, _⟩ => ⟨S4000, .f32⟩
  | .hbm, ⟨84, _⟩ => ⟨S64000x1, .i32⟩
  | .hbm, ⟨85, _⟩ => ⟨S4000, .f32⟩
  | .hbm, ⟨86, _⟩ => ⟨S_, .f32⟩
  | .hbm, ⟨87, _⟩ => ⟨S4000, .f32⟩
  | .hbm, ⟨88, _⟩ => ⟨S4000, .f32⟩
  | .hbm, ⟨89, _⟩ => ⟨S4000x1, .f32⟩
  | .hbm, ⟨90, _⟩ => ⟨S4000x128, .f32⟩
  | .hbm, ⟨91, _⟩ => ⟨S4000x128, .f32⟩
  | .hbm, ⟨92, _⟩ => ⟨S1x47, .f32⟩
  | .hbm, ⟨93, _⟩ => ⟨S4000x47, .f32⟩
  | .local _ .vmem, ⟨0, _⟩ => ⟨S6000x256, .f32⟩
  | .local _ .vmem, ⟨1, _⟩ => ⟨S6000x256, .f32⟩
  | .local _ .vmem, ⟨2, _⟩ => ⟨S256x128, .f32⟩
  | .local _ .vmem, ⟨3, _⟩ => ⟨S1x128, .f32⟩
  | .local _ .vmem, ⟨4, _⟩ => ⟨S6000x128, .f32⟩
  | .local _ .vmem, ⟨5, _⟩ => ⟨S6000x128, .f32⟩
  | .local _ .vmem, ⟨6, _⟩ => ⟨S15000x128, .f32⟩
  | .local _ .vmem, ⟨7, _⟩ => ⟨S128x128, .f32⟩
  | .local _ .vmem, ⟨8, _⟩ => ⟨S1x128, .f32⟩
  | .local _ .vmem, ⟨9, _⟩ => ⟨S15000x128, .f32⟩
  | .local _ .vmem, ⟨10, _⟩ => ⟨S4000x128, .f32⟩
  | .local _ .vmem, ⟨11, _⟩ => ⟨S128x47, .f32⟩
  | .local _ .vmem, ⟨12, _⟩ => ⟨S1x47, .f32⟩
  | .local _ .vmem, ⟨13, _⟩ => ⟨S4000x47, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S15000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S15000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4000x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S960000 : S_.BroadcastsInDim S960000 (![] : Fin 0 → Fin S960000.rank)
  bcast_S960000_S960000x1_0 : S960000.BroadcastsInDim S960000x1 (![0] : Fin 1 → Fin S960000x1.rank)
  bcast_S_S60000x256 : S_.BroadcastsInDim S60000x256 (![] : Fin 0 → Fin S60000x256.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x256_0_1 : S60000x1.BroadcastsInDim S60000x256 (![0, 1] : Fin 2 → Fin S60000x256.rank)
  shapeCasts_S128_S1x128 : S128.ShapeCasts S1x128
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  bcast_S_S240000 : S_.BroadcastsInDim S240000 (![] : Fin 0 → Fin S240000.rank)
  bcast_S240000_S240000x1_0 : S240000.BroadcastsInDim S240000x1 (![0] : Fin 1 → Fin S240000x1.rank)
  bcast_S_S15000x128 : S_.BroadcastsInDim S15000x128 (![] : Fin 0 → Fin S15000x128.rank)
  bcast_S_S15000 : S_.BroadcastsInDim S15000 (![] : Fin 0 → Fin S15000.rank)
  bcast_S15000_S15000x1_0 : S15000.BroadcastsInDim S15000x1 (![0] : Fin 1 → Fin S15000x1.rank)
  bcast_S15000x1_S15000x128_0_1 : S15000x1.BroadcastsInDim S15000x128 (![0, 1] : Fin 2 → Fin S15000x128.rank)
  inb_S15000x128_S15000x128_0_0 : ∀ a, (![0, 0] : Fin 2 → Nat) a + S15000x128.size a ≤ S15000x128.size a
  h_S15000x128 : 0 < S15000x128.numel
  shapeCasts_S15000x128_S15000x128 : S15000x128.ShapeCasts S15000x128
  inb_S128x128_S128x128_0_0 : ∀ a, (![0, 0] : Fin 2 → Nat) a + S128x128.size a ≤ S128x128.size a
  h_S128x128 : 0 < S128x128.numel
  broadcasts_S1x128_S15000x128 : S1x128.Broadcasts S15000x128
  bcast_S_S64000 : S_.BroadcastsInDim S64000 (![] : Fin 0 → Fin S64000.rank)
  bcast_S64000_S64000x1_0 : S64000.BroadcastsInDim S64000x1 (![0] : Fin 1 → Fin S64000x1.rank)
  bcast_S_S4000x128 : S_.BroadcastsInDim S4000x128 (![] : Fin 0 → Fin S4000x128.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  shapeCasts_S47_S1x47 : S47.ShapeCasts S1x47
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  inb_S4000x47_S4000x47_0_0 : ∀ a, (![0, 0] : Fin 2 → Nat) a + S4000x47.size a ≤ S4000x47.size a
  h_S4000x47 : 0 < S4000x47.numel
  gather_S300000x256_S960000x1_S960000x256_1_0_n_n_0_1_1256_wf : GatherDims.WF S300000x256 S960000x1 S960000x256 [1] [0] [] [0] [] 1 ![1, 256]
  scatter_S60000x256_S960000x1_S960000x256_1_0_0_1_wf : ScatterDims.WF S60000x256 S960000x1 S960000x256 [1] [0] [0] 1
  scatter_S60000_S960000x1_S960000_n_0_0_1_wf : ScatterDims.WF S60000 S960000x1 S960000 [] [0] [0] 1
  dot_S6000x256_S256x128_S6000x128_1_0_0_1_n_n_wf : DotDims.WF S6000x256 S256x128 S6000x128 [1] [0] [0] [1] [] []
  gather_S60000x128_S240000x1_S240000x128_1_0_n_n_0_1_1128_wf : GatherDims.WF S60000x128 S240000x1 S240000x128 [1] [0] [] [0] [] 1 ![1, 128]
  scatter_S15000x128_S240000x1_S240000x128_1_0_0_1_wf : ScatterDims.WF S15000x128 S240000x1 S240000x128 [1] [0] [0] 1
  scatter_S15000_S240000x1_S240000_n_0_0_1_wf : ScatterDims.WF S15000 S240000x1 S240000 [] [0] [0] 1
  dot_S15000x128_S128x128_S15000x128_1_0_0_1_n_n_wf : DotDims.WF S15000x128 S128x128 S15000x128 [1] [0] [0] [1] [] []
  gather_S15000x128_S64000x1_S64000x128_1_0_n_n_0_1_1128_wf : GatherDims.WF S15000x128 S64000x1 S64000x128 [1] [0] [] [0] [] 1 ![1, 128]
  scatter_S4000x128_S64000x1_S64000x128_1_0_0_1_wf : ScatterDims.WF S4000x128 S64000x1 S64000x128 [1] [0] [0] 1
  scatter_S4000_S64000x1_S64000_n_0_0_1_wf : ScatterDims.WF S4000 S64000x1 S64000 [] [0] [0] 1
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x256.size a ≤ S60000x256.size a
  hwx0_0 : ∀ i : grid0.Coords, EltTy.bits .f32 = 32 ∨ (Rect.block (s := S60000x256) S6000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S60000x128.size a
  hwx0_3 : ∀ i : grid0.Coords, EltTy.bits .f32 = 32 ∨ (Rect.block (s := S60000x128) S6000x128.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S15000x128.size a ≤ S15000x128.size a
  hwx1_0 : ∀ i : grid1.Coords, EltTy.bits .f32 = 32 ∨ (Rect.block (s := S15000x128) S15000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S15000x128.size a ≤ S15000x128.size a
  hwx1_3 : ∀ i : grid1.Coords, EltTy.bits .f32 = 32 ∨ (Rect.block (s := S15000x128) S15000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S4000x128.size a
  hwx2_0 : ∀ i : grid2.Coords, EltTy.bits .f32 = 32 ∨ (Rect.block (s := S4000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x47.size a ≤ S128x47.size a
  hwx2_1 : ∀ i : grid2.Coords, EltTy.bits .f32 = 32 ∨ (Rect.block (s := S128x47) S128x47.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x47.size a ≤ S1x47.size a
  hwx2_2 : ∀ i : grid2.Coords, EltTy.bits .f32 = 32 ∨ (Rect.block (s := S1x47) S1x47.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S4000x47.size a ≤ S4000x47.size a
  hwx2_3 : ∀ i : grid2.Coords, EltTy.bits .f32 = 32 ∨ (Rect.block (s := S4000x47) S4000x47.size (cc2_transform_3 i) (hinb2_3 i)).WholeWords (EltTy.packing .f32)

variable [Facts₀]

def gather_S300000x256_S960000x1_S960000x256_1_0_n_n_0_1_1256 : GatherDims S300000x256 S960000x1 S960000x256 where
  offsetDims := [1]
  collapsedSliceDims := [0]
  operandBatchingDims := []
  startIndicesBatchingDims := []
  startIndexMap := [0]
  indexVectorDim := 1
  sliceSizes := ![1, 256]
  wf := gather_S300000x256_S960000x1_S960000x256_1_0_n_n_0_1_1256_wf
def scatter_S60000x256_S960000x1_S960000x256_1_0_0_1 : ScatterDims S60000x256 S960000x1 S960000x256 where
  updateWindowDims := [1]
  insertedWindowDims := [0]
  scatterDimsToOperandDims := [0]
  indexVectorDim := 1
  wf := scatter_S60000x256_S960000x1_S960000x256_1_0_0_1_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def gather_S60000x128_S240000x1_S240000x128_1_0_n_n_0_1_1128 : GatherDims S60000x128 S240000x1 S240000x128 where
  offsetDims := [1]
  collapsedSliceDims := [0]
  operandBatchingDims := []
  startIndicesBatchingDims := []
  startIndexMap := [0]
  indexVectorDim := 1
  sliceSizes := ![1, 128]
  wf := gather_S60000x128_S240000x1_S240000x128_1_0_n_n_0_1_1128_wf
def scatter_S15000x128_S240000x1_S240000x128_1_0_0_1 : ScatterDims S15000x128 S240000x1 S240000x128 where
  updateWindowDims := [1]
  insertedWindowDims := [0]
  scatterDimsToOperandDims := [0]
  indexVectorDim := 1
  wf := scatter_S15000x128_S240000x1_S240000x128_1_0_0_1_wf
def scatter_S15000_S240000x1_S240000_n_0_0_1 : ScatterDims S15000 S240000x1 S240000 where
  updateWindowDims := []
  insertedWindowDims := [0]
  scatterDimsToOperandDims := [0]
  indexVectorDim := 1
  wf := scatter_S15000_S240000x1_S240000_n_0_0_1_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf
def gather_S15000x128_S64000x1_S64000x128_1_0_n_n_0_1_1128 : GatherDims S15000x128 S64000x1 S64000x128 where
  offsetDims := [1]
  collapsedSliceDims := [0]
  operandBatchingDims := []
  startIndicesBatchingDims := []
  startIndexMap := [0]
  indexVectorDim := 1
  sliceSizes := ![1, 128]
  wf := gather_S15000x128_S64000x1_S64000x128_1_0_n_n_0_1_1128_wf
def scatter_S4000x128_S64000x1_S64000x128_1_0_0_1 : ScatterDims S4000x128 S64000x1 S64000x128 where
  updateWindowDims := [1]
  insertedWindowDims := [0]
  scatterDimsToOperandDims := [0]
  indexVectorDim := 1
  wf := scatter_S4000x128_S64000x1_S64000x128_1_0_0_1_wf
def scatter_S4000_S64000x1_S64000_n_0_0_1 : ScatterDims S4000 S64000x1 S64000 where
  updateWindowDims := []
  insertedWindowDims := [0]
  scatterDimsToOperandDims := [0]
  indexVectorDim := 1
  wf := scatter_S4000_S64000x1_S64000_n_0_0_1_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_v18) S6000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S15000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S15000x128.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S4000x47.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩
abbrev S960000x1 : Shape := ⟨2, ![960000, 1]⟩
abbrev S960000x256 : Shape := ⟨2, ![960000, 256]⟩
abbrev S60000x256 : Shape := ⟨2, ![60000, 256]⟩
abbrev S60000 : Shape := ⟨1, ![60000]⟩
abbrev S60000x1 : Shape := ⟨2, ![60000, 1]⟩
abbrev S60000x128 : Shape := ⟨2, ![60000, 128]⟩
abbrev S1x128 : Shape := ⟨2, ![1, 128]⟩
abbrev S240000x1 : Shape := ⟨2, ![240000, 1]⟩
abbrev S240000x128 : Shape := ⟨2, ![240000, 128]⟩
abbrev S15000x128 : Shape := ⟨2, ![15000, 128]⟩
abbrev S15000 : Shape := ⟨1, ![15000]⟩
abbrev S15000x1 : Shape := ⟨2, ![15000, 1]⟩
abbrev S64000x1 : Shape := ⟨2, ![64000, 1]⟩
abbrev S64000x128 : Shape := ⟨2, ![64000, 128]⟩
abbrev S4000x128 : Shape := ⟨2, ![4000, 128]⟩
abbrev S4000 : Shape := ⟨1, ![4000]⟩
abbrev S4000x1 : Shape := ⟨2, ![4000, 1]⟩
abbrev S4000x47 : Shape := ⟨2, ![4000, 47]⟩
abbrev S1x47 : Shape := ⟨2, ![1, 47]⟩

abbrev nBuf : Space → Nat
  | .hbm => 106
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S960000, .i32⟩
  | .hbm, ⟨2, _⟩ => ⟨S960000, .i32⟩
  | .hbm, ⟨3, _⟩ => ⟨S240000, .i32⟩
  | .hbm, ⟨4, _⟩ => ⟨S240000, .i32⟩
  | .hbm, ⟨5, _⟩ => ⟨S64000, .i32⟩
  | .hbm, ⟨6, _⟩ => ⟨S64000, .i32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x47, .f32⟩
  | .hbm, ⟨12, _⟩ => ⟨S47, .f32⟩
  | .hbm, ⟨13, _⟩ => ⟨S_, .i32⟩
  | .hbm, ⟨14, _⟩ => ⟨S960000, .i32⟩
  | .hbm, ⟨15, _⟩ => ⟨S960000, .i1⟩
  | .hbm, ⟨16, _⟩ => ⟨S_, .i32⟩
  | .hbm, ⟨17, _⟩ => ⟨S960000, .i32⟩
  | .hbm, ⟨18, _⟩ => ⟨S960000, .i32⟩
  | .hbm, ⟨19, _⟩ => ⟨S960000, .i32⟩
  | .hbm, ⟨20, _⟩ => ⟨S960000x1, .i32⟩
  | .hbm, ⟨21, _⟩ => ⟨S960000x256, .f32⟩
  | .hbm, ⟨22, _⟩ => ⟨S_, .f32⟩
  | .hbm, ⟨23, _⟩ => ⟨S60000x256, .f32⟩
  | .hbm, ⟨24, _⟩ => ⟨S960000x1, .i32⟩
  | .hbm, ⟨25, _⟩ => ⟨S60000x256, .f32⟩
  | .hbm, ⟨26, _⟩ => ⟨S_, .f32⟩
  | .hbm, ⟨27, _⟩ => ⟨S960000, .f32⟩
  | .hbm, ⟨28, _⟩ => ⟨S_, .f32⟩
  | .hbm, ⟨29, _⟩ => ⟨S60000, .f32⟩
  | .hbm, ⟨30, _⟩ => ⟨S960000x1, .i32⟩
  | .hbm, ⟨31, _⟩ => ⟨S60000, .f32⟩
  | .hbm, ⟨32, _⟩ => ⟨S_, .f32⟩
  | .hbm, ⟨33, _⟩ => ⟨S60000, .f32⟩
  | .hbm, ⟨34, _⟩ => ⟨S60000, .f32⟩
  | .hbm, ⟨35, _⟩ => ⟨S60000x1, .f32⟩
  | .hbm, ⟨36, _⟩ => ⟨S60000x256, .f32⟩
  | .hbm, ⟨37, _⟩ => ⟨S60000x256, .f32⟩
  | .hbm, ⟨38, _⟩ => ⟨S60000x128, .f32⟩
  | .hbm, ⟨39, _⟩ => ⟨S1x128, .f32⟩
  | .hbm, ⟨40, _⟩ => ⟨S60000x128, .f32⟩
  | .hbm, ⟨41, _⟩ => ⟨S60000x128, .f32⟩
  | .hbm, ⟨42, _⟩ => ⟨S_, .f32⟩
  | .hbm, ⟨43, _⟩ => ⟨S60000x128, .f32⟩
  | .hbm, ⟨44, _⟩ => ⟨S60000x128, .f32⟩
  | .hbm, ⟨45, _⟩ => ⟨S_, .i32⟩
  | .hbm, ⟨46, _⟩ => ⟨S240000, .i32⟩
  | .hbm, ⟨47, _⟩ => ⟨S240000, .i1⟩
  | .hbm, ⟨48, _⟩ => ⟨S_, .i32⟩
  | .hbm, ⟨49, _⟩ => ⟨S240000, .i32⟩
  | .hbm, ⟨50, _⟩ => ⟨S240000, .i32⟩
  | .hbm, ⟨51, _⟩ => ⟨S240000, .i32⟩
  | .hbm, ⟨52, _⟩ => ⟨S240000x1, .i32⟩
  | .hbm, ⟨53, _⟩ => ⟨S240000x128, .f32⟩
  | .hbm, ⟨54, _⟩ => ⟨S_, .f32⟩
  | .hbm, ⟨55, _⟩ => ⟨S15000x128, .f32⟩
  | .hbm, ⟨56, _⟩ => ⟨S240000x1, .i32⟩
  | .hbm, ⟨57, _⟩ => ⟨S15000x128, .f32⟩
  | .hbm, ⟨58, _⟩ => ⟨S_, .f32⟩
  | .hbm, ⟨59, _⟩ => ⟨S240000, .f32⟩
  | .hbm, ⟨60, _⟩ => ⟨S_, .f32⟩
  | .hbm, ⟨61, _⟩ => ⟨S15000, .f32⟩
  | .hbm, ⟨62, _⟩ => ⟨S240000x1, .i32⟩
  | .hbm, ⟨63, _⟩ => ⟨S15000, .f32⟩
  | .hbm, ⟨64, _⟩ => ⟨S_, .f32⟩
  | .hbm, ⟨65, _⟩ => ⟨S15000, .f32⟩
  | .hbm, ⟨66, _⟩ => ⟨S15000, .f32⟩
  | .hbm, ⟨67, _⟩ => ⟨S15000x1, .f32⟩
  | .hbm, ⟨68, _⟩ => ⟨S15000x128, .f32⟩
  | .hbm, ⟨69, _⟩ => ⟨S15000x128, .f32⟩
  | .hbm, ⟨70, _⟩ => ⟨S15000x128, .f32⟩
  | .hbm, ⟨71, _⟩ => ⟨S1x128, .f32⟩
  | .hbm, ⟨72, _⟩ => ⟨S15000x128, .f32⟩
  | .hbm, ⟨73, _⟩ => ⟨S15000x128, .f32⟩
  | .hbm, ⟨74, _⟩ => ⟨S_, .f32⟩
  | .hbm, ⟨75, _⟩ => ⟨S15000x128, .f32⟩
  | .hbm, ⟨76, _⟩ => ⟨S15000x128, .f32⟩
  | .hbm, ⟨77, _⟩ => ⟨S_, .i32⟩
  | .hbm, ⟨78, _⟩ => ⟨S64000, .i32⟩
  | .hbm, ⟨79, _⟩ => ⟨S64000, .i1⟩
  | .hbm, ⟨80, _⟩ => ⟨S_, .i32⟩
  | .hbm, ⟨81, _⟩ => ⟨S64000, .i32⟩
  | .hbm, ⟨82, _⟩ => ⟨S64000, .i32⟩
  | .hbm, ⟨83, _⟩ => ⟨S64000, .i32⟩
  | .hbm, ⟨84, _⟩ => ⟨S64000x1, .i32⟩
  | .hbm, ⟨85, _⟩ => ⟨S64000x128, .f32⟩
  | .hbm, ⟨86, _⟩ => ⟨S_, .f32⟩
  | .hbm, ⟨87, _⟩ => ⟨S4000x128, .f32⟩
  | .hbm, ⟨88, _⟩ => ⟨S64000x1, .i32⟩
  | .hbm, ⟨89, _⟩ => ⟨S4000x128, .f32⟩
  | .hbm, ⟨90, _⟩ => ⟨S_, .f32⟩
  | .hbm, ⟨91, _⟩ => ⟨S64000, .f32⟩
  | .hbm, ⟨92, _⟩ => ⟨S_, .f32⟩
  | .hbm, ⟨93, _⟩ => ⟨S4000, .f32⟩
  | .hbm, ⟨94, _⟩ => ⟨S64000x1, .i32⟩
  | .hbm, ⟨95, _⟩ => ⟨S4000, .f32⟩
  | .hbm, ⟨96, _⟩ => ⟨S_, .f32⟩
  | .hbm, ⟨97, _⟩ => ⟨S4000, .f32⟩
  | .hbm, ⟨98, _⟩ => ⟨S4000, .f32⟩
  | .hbm, ⟨99, _⟩ => ⟨S4000x1, .f32⟩
  | .hbm, ⟨100, _⟩ => ⟨S4000x128, .f32⟩
  | .hbm, ⟨101, _⟩ => ⟨S4000x128, .f32⟩
  | .hbm, ⟨102, _⟩ => ⟨S4000x47, .f32⟩
  | .hbm, ⟨103, _⟩ => ⟨S1x47, .f32⟩
  | .hbm, ⟨104, _⟩ => ⟨S4000x47, .f32⟩
  | .hbm, ⟨105, _⟩ => ⟨S4000x47, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  bcast_S_S960000 : S_.BroadcastsInDim S960000 (![] : Fin 0 → Fin S960000.rank)
  bcast_S960000_S960000x1_0 : S960000.BroadcastsInDim S960000x1 (![0] : Fin 1 → Fin S960000x1.rank)
  bcast_S_S60000x256 : S_.BroadcastsInDim S60000x256 (![] : Fin 0 → Fin S60000x256.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x256_0_1 : S60000x1.BroadcastsInDim S60000x256 (![0, 1] : Fin 2 → Fin S60000x256.rank)
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  bcast_S_S60000x128 : S_.BroadcastsInDim S60000x128 (![] : Fin 0 → Fin S60000x128.rank)
  bcast_S_S240000 : S_.BroadcastsInDim S240000 (![] : Fin 0 → Fin S240000.rank)
  bcast_S240000_S240000x1_0 : S240000.BroadcastsInDim S240000x1 (![0] : Fin 1 → Fin S240000x1.rank)
  bcast_S_S15000x128 : S_.BroadcastsInDim S15000x128 (![] : Fin 0 → Fin S15000x128.rank)
  bcast_S_S15000 : S_.BroadcastsInDim S15000 (![] : Fin 0 → Fin S15000.rank)
  bcast_S15000_S15000x1_0 : S15000.BroadcastsInDim S15000x1 (![0] : Fin 1 → Fin S15000x1.rank)
  bcast_S15000x1_S15000x128_0_1 : S15000x1.BroadcastsInDim S15000x128 (![0, 1] : Fin 2 → Fin S15000x128.rank)
  bcast_S1x128_S15000x128_0_1 : S1x128.BroadcastsInDim S15000x128 (![0, 1] : Fin 2 → Fin S15000x128.rank)
  bcast_S_S64000 : S_.BroadcastsInDim S64000 (![] : Fin 0 → Fin S64000.rank)
  bcast_S64000_S64000x1_0 : S64000.BroadcastsInDim S64000x1 (![0] : Fin 1 → Fin S64000x1.rank)
  bcast_S_S4000x128 : S_.BroadcastsInDim S4000x128 (![] : Fin 0 → Fin S4000x128.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  bcast_S47_S1x47_1 : S47.BroadcastsInDim S1x47 (![1] : Fin 1 → Fin S1x47.rank)
  bcast_S1x47_S4000x47_0_1 : S1x47.BroadcastsInDim S4000x47 (![0, 1] : Fin 2 → Fin S4000x47.rank)
  gather_S300000x256_S960000x1_S960000x256_1_0_n_n_0_1_1256_wf : GatherDims.WF S300000x256 S960000x1 S960000x256 [1] [0] [] [0] [] 1 ![1, 256]
  scatter_S60000x256_S960000x1_S960000x256_1_0_0_1_wf : ScatterDims.WF S60000x256 S960000x1 S960000x256 [1] [0] [0] 1
  scatter_S60000_S960000x1_S960000_n_0_0_1_wf : ScatterDims.WF S60000 S960000x1 S960000 [] [0] [0] 1
  dot_S60000x256_S256x128_S60000x128_1_0_0_1_n_n_wf : DotDims.WF S60000x256 S256x128 S60000x128 [1] [0] [0] [1] [] []
  gather_S60000x128_S240000x1_S240000x128_1_0_n_n_0_1_1128_wf : GatherDims.WF S60000x128 S240000x1 S240000x128 [1] [0] [] [0] [] 1 ![1, 128]
  scatter_S15000x128_S240000x1_S240000x128_1_0_0_1_wf : ScatterDims.WF S15000x128 S240000x1 S240000x128 [1] [0] [0] 1
  scatter_S15000_S240000x1_S240000_n_0_0_1_wf : ScatterDims.WF S15000 S240000x1 S240000 [] [0] [0] 1
  dot_S15000x128_S128x128_S15000x128_1_0_0_1_n_n_wf : DotDims.WF S15000x128 S128x128 S15000x128 [1] [0] [0] [1] [] []
  gather_S15000x128_S64000x1_S64000x128_1_0_n_n_0_1_1128_wf : GatherDims.WF S15000x128 S64000x1 S64000x128 [1] [0] [] [0] [] 1 ![1, 128]
  scatter_S4000x128_S64000x1_S64000x128_1_0_0_1_wf : ScatterDims.WF S4000x128 S64000x1 S64000x128 [1] [0] [0] 1
  scatter_S4000_S64000x1_S64000_n_0_0_1_wf : ScatterDims.WF S4000 S64000x1 S64000 [] [0] [0] 1
  dot_S4000x128_S128x47_S4000x47_1_0_0_1_n_n_wf : DotDims.WF S4000x128 S128x47 S4000x47 [1] [0] [0] [1] [] []

variable [Facts₀]

def gather_S300000x256_S960000x1_S960000x256_1_0_n_n_0_1_1256 : GatherDims S300000x256 S960000x1 S960000x256 where
  offsetDims := [1]
  collapsedSliceDims := [0]
  operandBatchingDims := []
  startIndicesBatchingDims := []
  startIndexMap := [0]
  indexVectorDim := 1
  sliceSizes := ![1, 256]
  wf := gather_S300000x256_S960000x1_S960000x256_1_0_n_n_0_1_1256_wf
def scatter_S60000x256_S960000x1_S960000x256_1_0_0_1 : ScatterDims S60000x256 S960000x1 S960000x256 where
  updateWindowDims := [1]
  insertedWindowDims := [0]
  scatterDimsToOperandDims := [0]
  indexVectorDim := 1
  wf := scatter_S60000x256_S960000x1_S960000x256_1_0_0_1_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def dot_S60000x256_S256x128_S60000x128_1_0_0_1_n_n : DotDims S60000x256 S256x128 S60000x128 where
  lhsContracting := [1]
  rhsContracting := [0]
  lhsNonContracting := [0]
  rhsNonContracting := [1]
  lhsBatch := []
  rhsBatch := []
  wf := dot_S60000x256_S256x128_S60000x128_1_0_0_1_n_n_wf
def gather_S60000x128_S240000x1_S240000x128_1_0_n_n_0_1_1128 : GatherDims S60000x128 S240000x1 S240000x128 where
  offsetDims := [1]
  collapsedSliceDims := [0]
  operandBatchingDims := []
  startIndicesBatchingDims := []
  startIndexMap := [0]
  indexVectorDim := 1
  sliceSizes := ![1, 128]
  wf := gather_S60000x128_S240000x1_S240000x128_1_0_n_n_0_1_1128_wf
def scatter_S15000x128_S240000x1_S240000x128_1_0_0_1 : ScatterDims S15000x128 S240000x1 S240000x128 where
  updateWindowDims := [1]
  insertedWindowDims := [0]
  scatterDimsToOperandDims := [0]
  indexVectorDim := 1
  wf := scatter_S15000x128_S240000x1_S240000x128_1_0_0_1_wf
def scatter_S15000_S240000x1_S240000_n_0_0_1 : ScatterDims S15000 S240000x1 S240000 where
  updateWindowDims := []
  insertedWindowDims := [0]
  scatterDimsToOperandDims := [0]
  indexVectorDim := 1
  wf := scatter_S15000_S240000x1_S240000_n_0_0_1_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf
def gather_S15000x128_S64000x1_S64000x128_1_0_n_n_0_1_1128 : GatherDims S15000x128 S64000x1 S64000x128 where
  offsetDims := [1]
  collapsedSliceDims := [0]
  operandBatchingDims := []
  startIndicesBatchingDims := []
  startIndexMap := [0]
  indexVectorDim := 1
  sliceSizes := ![1, 128]
  wf := gather_S15000x128_S64000x1_S64000x128_1_0_n_n_0_1_1128_wf
def scatter_S4000x128_S64000x1_S64000x128_1_0_0_1 : ScatterDims S4000x128 S64000x1 S64000x128 where
  updateWindowDims := [1]
  insertedWindowDims := [0]
  scatterDimsToOperandDims := [0]
  indexVectorDim := 1
  wf := scatter_S4000x128_S64000x1_S64000x128_1_0_0_1_wf
def scatter_S4000_S64000x1_S64000_n_0_0_1 : ScatterDims S4000 S64000x1 S64000 where
  updateWindowDims := []
  insertedWindowDims := [0]
  scatterDimsToOperandDims := [0]
  indexVectorDim := 1
  wf := scatter_S4000_S64000x1_S64000_n_0_0_1_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«159257_j18141941859038_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.Region0.lean ====
/-
  The first pallas_call, at the extended reals: ten grid points, point t working on rows 6000 t … 6000 t + 5999. The
  rows' window and the result's window move with t on their first axis; the weights' and the bias row's blocks are
  their whole arrays at every point. The body loads its 6000 x 256 block of rows, the 256 x 128 weights and the 1 x 128
  bias row, multiplies into a zero accumulator, adds the bias row down the rows, takes the maximum with zero and stores
  the 6000 x 128 block of the result. A change of float format is the identity here: entry (r, c) of the block is the
  rectifier of sum over k of block (r, k) * weights (k, c), plus bias (0, c) — which looks only at row r of the block,
  that is at row 6000 t + r of the whole array. So every block is the restriction of ONE function of the whole arrays,
  and the ten blocks tile the 60000 rows: `arr` says the result ARRAY after the pipeline is that function, for whatever
  contents `V` the region is entered at.
-/
import proofs.«159257_j18141941859038_1_alg».proof.Proof.Gen.KernelIdeal.Frame
import proofs.«159257_j18141941859038_1_alg».proof.Proof.LibDense
import proofs.«159257_j18141941859038_1_alg».proof.Proof.LibRectify
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx
open Idealize.ShloMosaic.Pipeline (Dat Cfg Window)
open Cert.Lib.Dense Cert.Lib.Rectify

variable (V : (c : Dev nD) → (b : Ref sig .tc) → Buf (Elt Ideal) ((c : Thread nD τ).loc b))

theorem hz : (![0, 0] : Fin 2 → Nat) = fun _ => 0 := funext fun a => by fin_cases a <;> rfl

/-- The body's stored value: the rectifier of the block product plus the bias row. -/
theorem pay (x : Vec Ideal S6000x256 .f32) (w : Vec Ideal S256x128 .f32) (b : Vec Ideal S1x128 .f32) :
    k0_pay1 x w b = relu (affine x w b) := by
  unfold k0_pay1
  exact (relu_vec _).trans (congrArg relu (funext fun y => pay_affine x w b _ _ _ y))

/-- The printed index maps over the ten grid points: the rows' block index is the result's on the first axis, every
    other block index is zero, and the result's first block index stays below ten. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every block of rows is some grid point's. -/
theorem idx_onto : ∀ q : Fin 10, ∃ t : Fin cfg0.N, win0_3.index t = ![q.val, 0] :=
  (by decide +kernel : ∀ q : Fin 10, ∃ t : Fin grid0.N, win0_3.index t = ![q.val, 0])

/-- What grid point t writes back is its block of the rectified affine map of the three operand ARRAYS: the rows' block
    is the rows' array read at the result block's rows, the weights and the bias row are read whole. -/
theorem flushed (c : Dev nD) (t : Fin cfg0.N) :
    (dat0 V c).flushed 3 t = ((cfg0.win 3).blk t).view.read (Elt Ideal)
      (relu (affine (M := 60000) (K := 256) (N := 128) (V c main_v18) (V c main_arg7) (V c main_v19))) := by
  show (cfg0.win 3).cut (grid0.coords t) ((dat0 V c).after 3 t) = _
  rw [after0_3]
  unfold out0_3
  rw [View.canon_unit_zero hz]
  simp only [View.ld_unit_zero (S := S6000x256) hz, View.ld_unit_zero (S := S256x128) hz, View.ld_unit_zero (S := S1x128) hz]
  rw [pay]
  obtain ⟨e00, e01, e10, e11, e20, e21, e30, e31⟩ := idx_facts t
  funext j
  show relu1 (affine (M := 6000) (K := 256) (N := 128) (iblk0 V c 0 t) (iblk0 V c 1 t) (iblk0 V c 2 t) j)
    = relu1 (affine (M := 60000) (K := 256) (N := 128) (V c main_v18) (V c main_arg7) (V c main_v19) (((cfg0.win 3).blk t).view.emb j))
  refine congrArg relu1 (affine_congr (Mb := 6000) (M := 60000) (K := 256) (N := 128) _ _ _ _ _ _ j _ ?_ ?_ ?_)
  · intro k
    show V c main_v18 (((cfg0.win 0).blk t).view.emb (ix2 (j 0) k)) = V c main_v18 (ix2 ((((cfg0.win 3).blk t).view.emb j) 0) k)
    refine congrArg (V c main_v18) (funext fun a => Fin.ext ?_)
    match a with
    | ⟨0, _⟩ => show win0_0.index t (0 : Fin 2) * 6000 + 1 * (j 0).val = win0_3.index t (0 : Fin 2) * 6000 + 1 * (j 0).val; omega
    | ⟨1, _⟩ => show win0_0.index t (1 : Fin 2) * 256 + 1 * k.val = k.val; omega
  · intro k
    show V c main_arg7 (((cfg0.win 1).blk t).view.emb (ix2 k (j 1))) = V c main_arg7 (ix2 k ((((cfg0.win 3).blk t).view.emb j) 1))
    refine congrArg (V c main_arg7) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  · show V c main_v19 (((cfg0.win 2).blk t).view.emb (ix2 0 (j 1))) = V c main_v19 (ix2 0 ((((cfg0.win 3).blk t).view.emb j) 1))
    refine congrArg (V c main_v19) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the result array is in point t's block iff each coordinate is in the block's range on its axis. -/
theorem mem_blk (t : Fin cfg0.N) (i : S60000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v20).slice (win0_3.rect t)).set ↔ _
  rw [View.set_slice_whole, Rect.mem_set_unit]
  exact Iff.rfl

/-- The region's result array after its pipeline: the rectified affine map of its three operand arrays as the region
    finds them. Row r lies in the block of the point whose block index is r / 6000. -/
theorem arr (c : Dev nD) :
    (dat0 V c).arrAt 3 cfg0.N = relu (affine (M := 60000) (K := 256) (N := 128) (V c main_v18) (V c main_arg7) (V c main_v19)) :=
  (dat0 V c).arrAt_eq_of_cover 3 _ (fun t _ => flushed V c t) (fun i => by
    have h0 : (i 0).val < 60000 := (i 0).isLt
    have h1 : (i 1).val < 128 := (i 1).isLt
    obtain ⟨t, ht⟩ := idx_onto ⟨(i 0).val / 6000, by omega⟩
    have q0 : win0_3.index t (0 : Fin 2) = (i 0).val / 6000 := congrFun ht 0
    have q1 : win0_3.index t (1 : Fin 2) = 0 := congrFun ht 1
    refine ⟨t, flush0_3 t, ?_⟩
    rw [mem_blk]
    intro a
    match a with
    | ⟨0, _⟩ => show win0_3.index t (0 : Fin 2) * 6000 ≤ (i 0).val ∧ (i 0).val < win0_3.index t (0 : Fin 2) * 6000 + 6000; omega
    | ⟨1, _⟩ => show win0_3.index t (1 : Fin 2) * 128 ≤ (i 1).val ∧ (i 1).val < win0_3.index t (1 : Fin 2) * 128 + 128; omega)

end Cert.KernelIdeal.Region0

end
-- ==== Proof.Region1.lean ====
/-
  The second pallas_call, at the extended reals: one grid point, every window's block its whole array. The body loads
  the 15000 x 128 rows, the 128 x 128 weights and the 1 x 128 bias row, multiplies into a zero accumulator, adds the
  bias row down the rows, takes the maximum with zero and stores the 15000 x 128 result. A change of float format is the
  identity here: entry (r, c) of the result is the rectifier of
  sum over k of rows (r, k) * weights (k, c), plus bias (0, c).
  `arr` says so of the result ARRAY after the pipeline, for whatever contents `V` the region is entered at.
-/
import proofs.«159257_j18141941859038_1_alg».proof.Proof.Gen.KernelIdeal.Frame
import proofs.«159257_j18141941859038_1_alg».proof.Proof.LibDense
import proofs.«159257_j18141941859038_1_alg».proof.Proof.LibRectify
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat Cfg Window)
open Cert.Lib.Dense Cert.Lib.Rectify

variable (V : (c : Dev nD) → (b : Ref sig .tc) → Buf (Elt Ideal) ((c : Thread nD τ).loc b))

theorem hz : (![0, 0] : Fin 2 → Nat) = fun _ => 0 := funext fun a => by fin_cases a <;> rfl

/-- The body's stored value: the rectifier of the block product plus the bias row. -/
theorem pay (x : Vec Ideal S15000x128 .f32) (w : Vec Ideal S128x128 .f32) (b : Vec Ideal S1x128 .f32) :
    k1_pay1 x w b = relu (affine x w b) := by
  unfold k1_pay1
  exact (relu_vec _).trans (congrArg relu (funext fun y => pay_affine x w b _ _ _ y))

/-- The printed index maps over the one grid point: every window's block index is zero on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What the grid point writes back is its block of the rectified affine map of the three operand arrays. -/
theorem flushed (c : Dev nD) (t : Fin cfg1.N) :
    (dat1 V c).flushed 3 t = ((cfg1.win 3).blk t).view.read (Elt Ideal)
      (relu (affine (M := 15000) (K := 128) (N := 128) (V c main_v39) (V c main_arg9) (V c main_v40))) := by
  show (cfg1.win 3).cut (grid1.coords t) ((dat1 V c).after 3 t) = _
  rw [after1_3]
  unfold out1_3
  rw [View.canon_unit_zero hz]
  simp only [View.ld_unit_zero (S := S15000x128) hz, View.ld_unit_zero (S := S128x128) hz, View.ld_unit_zero (S := S1x128) hz]
  rw [pay]
  obtain ⟨e00, e01, e10, e11, e20, e21, e30, e31⟩ := idx_facts t
  funext j
  show relu1 (affine (M := 15000) (K := 128) (N := 128) (iblk1 V c 0 t) (iblk1 V c 1 t) (iblk1 V c 2 t) j)
    = relu1 (affine (M := 15000) (K := 128) (N := 128) (V c main_v39) (V c main_arg9) (V c main_v40) (((cfg1.win 3).blk t).view.emb j))
  refine congrArg relu1 (affine_congr (Mb := 15000) (M := 15000) (K := 128) (N := 128) _ _ _ _ _ _ j _ ?_ ?_ ?_)
  · intro k
    show V c main_v39 (((cfg1.win 0).blk t).view.emb (ix2 (j 0) k)) = V c main_v39 (ix2 ((((cfg1.win 3).blk t).view.emb j) 0) k)
    refine congrArg (V c main_v39) (funext fun a => Fin.ext ?_)
    match a with
    | ⟨0, _⟩ => show win1_0.index t (0 : Fin 2) * 15000 + 1 * (j 0).val = win1_3.index t (0 : Fin 2) * 15000 + 1 * (j 0).val; omega
    | ⟨1, _⟩ => show win1_0.index t (1 : Fin 2) * 128 + 1 * k.val = k.val; omega
  · intro k
    show V c main_arg9 (((cfg1.win 1).blk t).view.emb (ix2 k (j 1))) = V c main_arg9 (ix2 k ((((cfg1.win 3).blk t).view.emb j) 1))
    refine congrArg (V c main_arg9) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  · show V c main_v40 (((cfg1.win 2).blk t).view.emb (ix2 0 (j 1))) = V c main_v40 (ix2 0 ((((cfg1.win 3).blk t).view.emb j) 1))
    refine congrArg (V c main_v40) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array is in the grid point's block iff each coordinate is in the block's range on its axis. -/
theorem mem_blk (t : Fin cfg1.N) (i : S15000x128.Idx) :
    i ∈ ((cfg1.win 3).blk t).view.set ↔ ∀ a : Fin 2, win1_3.index t a * S15000x128.size a ≤ (i a).val ∧ (i a).val < win1_3.index t a * S15000x128.size a + S15000x128.size a := by
  show i ∈ ((View.whole main_v41).slice (win1_3.rect t)).set ↔ _
  rw [View.set_slice_whole, Rect.mem_set_unit]
  exact Iff.rfl

/-- The region's result array after its pipeline: the rectified affine map of its three operand arrays as the region
    finds them (the one block covers the array). -/
theorem arr (c : Dev nD) :
    (dat1 V c).arrAt 3 cfg1.N = relu (affine (M := 15000) (K := 128) (N := 128) (V c main_v39) (V c main_arg9) (V c main_v40)) :=
  (dat1 V c).arrAt_eq_of_cover 3 _ (fun t _ => flushed V c t) (fun i => by
    obtain ⟨e00, e01, e10, e11, e20, e21, e30, e31⟩ := idx_facts t1_0
    refine ⟨t1_0, flush1_3 t1_0, ?_⟩
    rw [mem_blk]
    intro a
    have h0 : (i 0).val < 15000 := (i 0).isLt
    have h1 : (i 1).val < 128 := (i 1).isLt
    match a with
    | ⟨0, _⟩ => show win1_3.index t1_0 (0 : Fin 2) * 15000 ≤ (i 0).val ∧ (i 0).val < win1_3.index t1_0 (0 : Fin 2) * 15000 + 15000; omega
    | ⟨1, _⟩ => show win1_3.index t1_0 (1 : Fin 2) * 128 ≤ (i 1).val ∧ (i 1).val < win1_3.index t1_0 (1 : Fin 2) * 128 + 128; omega)

end Cert.KernelIdeal.Region1

end
-- ==== Proof.Region2.lean ====
/-
  The third pallas_call, at the extended reals: one grid point, every window's block its whole array. The body loads
  the 4000 x 128 rows, the 128 x 47 weights and the 1 x 47 bias row, multiplies into a zero accumulator, adds the bias
  row down the rows and stores the 4000 x 47 result. A change of float format is the identity here, so the product of
  the two narrowed operands is the product of the operands: entry (r, c) of the result is
  sum over k of rows (r, k) * weights (k, c), plus bias (0, c) (`Cert.Lib.Dense.affine`).
  `arr` says so of the result ARRAY after the pipeline, for whatever contents `V` the region is entered at.
-/
import proofs.«159257_j18141941859038_1_alg».proof.Proof.Gen.KernelIdeal.Frame
import proofs.«159257_j18141941859038_1_alg».proof.Proof.LibDense
import proofs.«159257_j18141941859038_1_alg».proof.Proof.LibRectify
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.ValueIdx
open Idealize.ShloMosaic.Pipeline (Dat Cfg Window)
open Cert.Lib.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value, entry by entry: the block product plus the bias row. -/
theorem pay (x : Vec Ideal S4000x128 .f32) (w : Vec Ideal S128x47 .f32) (b : Vec Ideal S1x47 .f32) :
    k2_pay1 x w b = affine x w b := by
  funext y
  unfold k2_pay1
  exact pay_affine x w b _ _ _ y

/-- The printed index maps over the one grid point: every window's block index is zero on both axes. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the grid point writes back is its block of the affine map of the three operand arrays: each operand block is
    its array read at the same rows and columns the result block names. -/
theorem flushed (c : Dev nD) (t : Fin cfg2.N) :
    (dat2 V c).flushed 3 t = ((cfg2.win 3).blk t).view.read (Elt Ideal)
      (affine (M := 4000) (K := 128) (N := 47) (V c main_v60) (V c main_arg11) (V c main_v61)) := by
  show (cfg2.win 3).cut (grid2.coords t) ((dat2 V c).after 3 t) = _
  rw [after2_3]
  unfold out2_3
  rw [View.canon_unit_zero hz]
  simp only [View.ld_unit_zero (S := S4000x128) hz, View.ld_unit_zero (S := S128x47) hz, View.ld_unit_zero (S := S1x47) hz]
  rw [pay]
  obtain ⟨e00, e01, e10, e11, e20, e21, e30, e31⟩ := idx_facts t
  funext j
  show affine (M := 4000) (K := 128) (N := 47) (iblk2 V c 0 t) (iblk2 V c 1 t) (iblk2 V c 2 t) j
    = affine (M := 4000) (K := 128) (N := 47) (V c main_v60) (V c main_arg11) (V c main_v61) (((cfg2.win 3).blk t).view.emb j)
  refine affine_congr (Mb := 4000) (M := 4000) (K := 128) (N := 47) _ _ _ _ _ _ j _ ?_ ?_ ?_
  · intro k
    show V c main_v60 (((cfg2.win 0).blk t).view.emb (ix2 (j 0) k)) = V c main_v60 (ix2 ((((cfg2.win 3).blk t).view.emb j) 0) k)
    refine congrArg (V c main_v60) (funext fun a => Fin.ext ?_)
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 128 + 1 * k.val = k.val; omega
  · intro k
    show V c main_arg11 (((cfg2.win 1).blk t).view.emb (ix2 k (j 1))) = V c main_arg11 (ix2 k ((((cfg2.win 3).blk t).view.emb j) 1))
    refine congrArg (V c main_arg11) (funext fun a => Fin.ext ?_)
    match a with
    | ⟨0, _⟩ => show win2_1.index t (0 : Fin 2) * 128 + 1 * k.val = k.val; omega
    | ⟨1, _⟩ => show win2_1.index t (1 : Fin 2) * 47 + 1 * (j 1).val = win2_3.index t (1 : Fin 2) * 47 + 1 * (j 1).val; omega
  · show V c main_v61 (((cfg2.win 2).blk t).view.emb (ix2 0 (j 1))) = V c main_v61 (ix2 0 ((((cfg2.win 3).blk t).view.emb j) 1))
    refine congrArg (V c main_v61) (funext fun a => Fin.ext ?_)
    match a with
    | ⟨0, _⟩ => show win2_2.index t (0 : Fin 2) * 1 + 1 * 0 = 0; omega
    | ⟨1, _⟩ => show win2_2.index t (1 : Fin 2) * 47 + 1 * (j 1).val = win2_3.index t (1 : Fin 2) * 47 + 1 * (j 1).val; omega

/-- An index of the result array is in the grid point's block iff each coordinate is in the block's range on its axis. -/
theorem mem_blk (t : Fin cfg2.N) (i : S4000x47.Idx) :
    i ∈ ((cfg2.win 3).blk t).view.set ↔ ∀ a : Fin 2, win2_3.index t a * S4000x47.size a ≤ (i a).val ∧ (i a).val < win2_3.index t a * S4000x47.size a + S4000x47.size a := by
  show i ∈ ((View.whole main_v62).slice (win2_3.rect t)).set ↔ _
  rw [View.set_slice_whole, Rect.mem_set_unit]
  exact Iff.rfl

/-- The region's result array after its pipeline: the affine map of its three operand arrays as the region finds them
    (the one block covers the array). -/
theorem arr (c : Dev nD) :
    (dat2 V c).arrAt 3 cfg2.N = affine (M := 4000) (K := 128) (N := 47) (V c main_v60) (V c main_arg11) (V c main_v61) :=
  (dat2 V c).arrAt_eq_of_cover 3 _ (fun t _ => flushed V c t) (fun i => by
    obtain ⟨e00, e01, e10, e11, e20, e21, e30, e31⟩ := idx_facts t2_0
    refine ⟨t2_0, flush2_3 t2_0, ?_⟩
    rw [mem_blk]
    intro a
    have h0 : (i 0).val < 4000 := (i 0).isLt
    have h1 : (i 1).val < 47 := (i 1).isLt
    match a with
    | ⟨0, _⟩ => show win2_3.index t2_0 (0 : Fin 2) * 4000 ≤ (i 0).val ∧ (i 0).val < win2_3.index t2_0 (0 : Fin 2) * 4000 + 4000; omega
    | ⟨1, _⟩ => show win2_3.index t2_0 (1 : Fin 2) * 47 ≤ (i 1).val ∧ (i 1).val < win2_3.index t2_0 (1 : Fin 2) * 47 + 47; omega)

end Cert.KernelIdeal.Region2

end
-- ==== Proof.RefLayers.lean ====
/-
  The reference, layer by layer, at the extended reals. Each of its three layers is the same shape: a mean
  aggregation of the rows gathered along the edges (shared, operation for operation, with the kernel's program, and
  never opened here), then an affine map — the dot product with the weights plus the bias row — and, in the first two
  layers, the rectifier. The stages the generated reading names are folded into those three pieces:
  `agg1`, `agg2` (the second and third aggregation as functions of the layer output they gather from),
  `Cert.Lib.Dense.affine` over `biasRow`, and `Cert.Lib.Rectify.relu`.
-/
import proofs.«159257_j18141941859038_1_alg».proof.Proof.Gen.ReferenceIdeal.Read
import proofs.«159257_j18141941859038_1_alg».proof.Proof.LibDense
import proofs.«159257_j18141941859038_1_alg».proof.Proof.LibRectify

set_option maxRecDepth 16384

noncomputable section

namespace Cert.ReferenceIdeal.Layers

open Cert.ReferenceIdeal Cert.ReferenceIdeal.Gen Cert.ReferenceIdeal.Read
open Idealize.ShloMosaic
open Cert.Lib.Dense Cert.Lib.Rectify

/-- The second layer's mean aggregation, of the rows `h` it gathers from: the sum over the edges into each destination
    row, divided by the larger of the row's edge count and one. -/
def agg1 (h : FVec Ideal S60000x128 .f32) (x3 x4 : (⟨S240000, .i32⟩ : BufTy).Contents (Elt Ideal)) : FVec Ideal S15000x128 .f32 :=
  Host.divf (F := Ideal) (φ := .f32)
    (Host.scatterAdd (F := Ideal) (φ := .f32) scatter_S15000x128_S240000x1_S240000x128_1_0_0_1 (val_main_v31 (F := Ideal)) (val_main_v32 (F := Ideal) x4)
      (Host.gather gather_S60000x128_S240000x1_S240000x128_1_0_n_n_0_1_1128 h (val_main_v29 (F := Ideal) x3)))
    (val_main_v41 (F := Ideal) x4)

/-- The third layer's mean aggregation, of the rows `h` it gathers from. -/
def agg2 (h : FVec Ideal S15000x128 .f32) (x5 x6 : (⟨S64000, .i32⟩ : BufTy).Contents (Elt Ideal)) : FVec Ideal S4000x128 .f32 :=
  Host.divf (F := Ideal) (φ := .f32)
    (Host.scatterAdd (F := Ideal) (φ := .f32) scatter_S4000x128_S64000x1_S64000x128_1_0_0_1 (val_main_v55 (F := Ideal)) (val_main_v56 (F := Ideal) x6)
      (Host.gather gather_S15000x128_S64000x1_S64000x128_1_0_n_n_0_1_1128 h (val_main_v53 (F := Ideal) x5)))
    (val_main_v65 (F := Ideal) x6)

section
variable (x0 : (⟨S300000x256, .f32⟩ : BufTy).Contents (Elt Ideal)) (x1 x2 : (⟨S960000, .i32⟩ : BufTy).Contents (Elt Ideal)) (x3 x4 : (⟨S240000, .i32⟩ : BufTy).Contents (Elt Ideal)) (x5 x6 : (⟨S64000, .i32⟩ : BufTy).Contents (Elt Ideal))
  (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x47, .f32⟩ : BufTy).Contents (Elt Ideal)) (x12 : (⟨S47, .f32⟩ : BufTy).Contents (Elt Ideal))

/-- The first layer before its rectifier: the affine map of the first aggregation. -/
theorem v22_eq : val_main_v22 (F := Ideal) x0 x1 x2 x7 x8
    = affine (M := 60000) (K := 256) (N := 128) (val_main_v18 (F := Ideal) x0 x1 x2) x7 (biasRow x8) := by
  exact host_affine_row (M := 60000) (K := 256) (N := 128) (val_main_v18 (F := Ideal) x0 x1 x2) x7 x8
    bcast_S128_S1x128_1 bcast_S1x128_S60000x128_0_1

/-- The call of the rectifier, inlined: the maximum with a zero constant repeated over the shape. -/
theorem v23_relu : val_main_v23 (F := Ideal) x0 x1 x2 x7 x8 = relu (val_main_v22 (F := Ideal) x0 x1 x2 x7 x8) := by
  exact relu_host (S := S60000x128) (val_main_v22 (F := Ideal) x0 x1 x2 x7 x8) bcast_S_S60000x128

/-- The first layer's output: the rectified affine map of the first aggregation. -/
theorem v23_eq : val_main_v23 (F := Ideal) x0 x1 x2 x7 x8
    = relu (affine (M := 60000) (K := 256) (N := 128) (val_main_v18 (F := Ideal) x0 x1 x2) x7 (biasRow x8)) := by
  rw [v23_relu, v22_eq]

/-- The second aggregation gathers from the first layer's output. -/
theorem v42_eq : val_main_v42 (F := Ideal) x0 x1 x2 x3 x4 x7 x8 = agg1 (val_main_v23 (F := Ideal) x0 x1 x2 x7 x8) x3 x4 := rfl

/-- The second layer before its rectifier. -/
theorem v46_eq : val_main_v46 (F := Ideal) x0 x1 x2 x3 x4 x7 x8 x9 x10
    = affine (M := 15000) (K := 128) (N := 128) (val_main_v42 (F := Ideal) x0 x1 x2 x3 x4 x7 x8) x9 (biasRow x10) := by
  exact host_affine_row (M := 15000) (K := 128) (N := 128) (val_main_v42 (F := Ideal) x0 x1 x2 x3 x4 x7 x8) x9 x10
    bcast_S128_S1x128_1 bcast_S1x128_S15000x128_0_1

/-- The second call of the rectifier, inlined. -/
theorem v47_relu : val_main_v47 (F := Ideal) x0 x1 x2 x3 x4 x7 x8 x9 x10
    = relu (val_main_v46 (F := Ideal) x0 x1 x2 x3 x4 x7 x8 x9 x10) := by
  exact relu_host (S := S15000x128) (val_main_v46 (F := Ideal) x0 x1 x2 x3 x4 x7 x8 x9 x10) bcast_S_S15000x128

/-- The second layer's output. -/
theorem v47_eq : val_main_v47 (F := Ideal) x0 x1 x2 x3 x4 x7 x8 x9 x10
    = relu (affine (M := 15000) (K := 128) (N := 128) (val_main_v42 (F := Ideal) x0 x1 x2 x3 x4 x7 x8) x9 (biasRow x10)) := by
  rw [v47_relu, v46_eq]

/-- The third aggregation gathers from the second layer's output. -/
theorem v66_eq : val_main_v66 (F := Ideal) x0 x1 x2 x3 x4 x5 x6 x7 x8 x9 x10
    = agg2 (val_main_v47 (F := Ideal) x0 x1 x2 x3 x4 x7 x8 x9 x10) x5 x6 := rfl

/-- The result: the affine map of the third aggregation, no rectifier. -/
theorem v70_eq : val_main_v70 (F := Ideal) x0 x1 x2 x3 x4 x5 x6 x7 x8 x9 x10 x11 x12
    = affine (M := 4000) (K := 128) (N := 47) (val_main_v66 (F := Ideal) x0 x1 x2 x3 x4 x5 x6 x7 x8 x9 x10) x11 (biasRow x12) := by
  exact host_affine_row (M := 4000) (K := 128) (N := 47) (val_main_v66 (F := Ideal) x0 x1 x2 x3 x4 x5 x6 x7 x8 x9 x10) x11 x12
    bcast_S47_S1x47_1 bcast_S1x47_S4000x47_0_1

/-- The reference's result as three layers over the shared aggregations. -/
theorem result_eq : val_main_v70 (F := Ideal) x0 x1 x2 x3 x4 x5 x6 x7 x8 x9 x10 x11 x12
    = affine (M := 4000) (K := 128) (N := 47)
        (agg2 (relu (affine (M := 15000) (K := 128) (N := 128)
          (agg1 (relu (affine (M := 60000) (K := 256) (N := 128) (val_main_v18 (F := Ideal) x0 x1 x2) x7 (biasRow x8))) x3 x4)
          x9 (biasRow x10))) x5 x6)
        x11 (biasRow x12) := by
  rw [v70_eq, v66_eq, v47_eq, v42_eq, v23_eq]

end

end Cert.ReferenceIdeal.Layers

end
-- ==== Proof.Host0.lean ====
/-
  What the first pallas_call finds in its three operand arrays, at the extended reals: the host operations before it,
  read off the launch memory. Its rows are the first mean aggregation of the features along the first layer's edges —
  the very operations, in the very order, of the reference's first aggregation, so the two are one term and nothing of
  it is opened —, its weights are the argument as launched, and its bias row is the bias vector reshaped to one row.
-/
import proofs.«159257_j18141941859038_1_alg».proof.Proof.Gen.KernelIdeal.Frame
import proofs.«159257_j18141941859038_1_alg».proof.Proof.RefLayers
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo
open Cert.Lib.Dense

variable (m : (ℓ : Loc nD τ sig) → Buf (Elt Ideal) ℓ) (ρ : Dev nD → PrngReg)

set_option maxHeartbeats 4000000 in
/-- The rows: the reference's first aggregation of the launched features and edge lists. -/
theorem rows (c : Dev nD) : V1 m ρ c main_v18
    = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]
  after_results
  rfl

/-- The bias row: the launched bias vector as the one row of a 1 x 128 matrix. -/
theorem bias (c : Dev nD) : V1 m ρ c main_v19 = biasRow (N := 128) (m ((c : Thread nD τ).loc main_arg8)) := by
  show StableHlo.after hostOps0 (W0 m ρ c) (Proc.devRef .tc main_v19) = _
  dsimp only [hostOps0]
  after_results
  exact shapeCast_row (N := 128) (m ((c : Thread nD τ).loc main_arg8)) shapeCasts_S128_S1x128

/-- The weights: as launched. -/
theorem weights (c : Dev nD) : V1 m ρ c main_arg7 = m ((c : Thread nD τ).loc main_arg7) := by
  show StableHlo.after hostOps0 (W0 m ρ c) (Proc.devRef .tc main_arg7) = _
  dsimp only [hostOps0]
  after_results

end Cert.KernelIdeal.Stretch0

end
-- ==== Proof.KeptArgs.lean ====
/-
  The argument arrays a later stretch of host operations reads are still what @main was launched with when that
  stretch begins: no host operation writes an argument, and a pallas_call writes only its result window's array. Each
  lemma walks the boundary contents back to the launch memory, one stretch or one region at a time.
-/
import proofs.«159257_j18141941859038_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a stretch writes the buffer in question: each operation writes its one result buffer, another one. -/
local macro "host_keeps" : tactic => `(tactic| (
  refine List.forall_iff_forall_mem.mp ?_
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## At the second pallas_call's stretch: one region and one stretch back -/

/-- The second layer's edge sources are as launched. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by host_keeps)
    _ = m ((c : Thread nD τ).loc main_arg3) := rfl

/-- The second layer's edge destinations are as launched. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by host_keeps)
    _ = m ((c : Thread nD τ).loc main_arg4) := rfl

/-- The second layer's weights are as launched. -/
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (by host_keeps)
    _ = m ((c : Thread nD τ).loc main_arg9) := rfl

/-- The second layer's bias is as launched. -/
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by host_keeps)
    _ = m ((c : Thread nD τ).loc main_arg10) := rfl

/-! ## At the third pallas_call's stretch: two regions and two stretches back -/

/-- The third layer's edge sources are as launched. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by host_keeps)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by host_keeps)
    _ = m ((c : Thread nD τ).loc main_arg5) := rfl

/-- The third layer's edge destinations are as launched. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by host_keeps)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by host_keeps)
    _ = m ((c : Thread nD τ).loc main_arg6) := rfl

/-- The third layer's weights are as launched. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by host_keeps)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (by host_keeps)
    _ = m ((c : Thread nD τ).loc main_arg11) := rfl

/-- The third layer's bias is as launched. -/
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by host_keeps)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (by host_keeps)
    _ = m ((c : Thread nD τ).loc main_arg12) := rfl

end Cert.KernelIdeal.Kept

end
-- ==== Proof.Host1.lean ====
/-
  What the second pallas_call finds in its three operand arrays, at the extended reals: the host operations between
  the first and the second call, read off the contents the first call leaves. Its rows are the second mean aggregation
  — the reference's, operation for operation — of whatever the first call's result array holds, along the second
  layer's edges as launched; its weights are the argument as launched; its bias row is the bias vector as one row.
-/
import proofs.«159257_j18141941859038_1_alg».proof.Proof.Gen.KernelIdeal.Frame
import proofs.«159257_j18141941859038_1_alg».proof.Proof.RefLayers
import proofs.«159257_j18141941859038_1_alg».proof.Proof.KeptArgs
import Idealize.ShloMosaic.Lib.StableHlo.Run

set_option maxRecDepth 16384

noncomputable section

namespace Cert.KernelIdeal.Stretch1

open Cert.KernelIdeal Cert.KernelIdeal.Gen Cert.KernelIdeal.Kept
open Idealize.ShloMosaic Idealize.ShloMosaic.TcCoe Idealize.SL.Sem Idealize.ShloMosaic.StableHlo
open Cert.Lib.Dense

variable (m : (ℓ : Loc nD τ sig) → Buf (Elt Ideal) ℓ) (ρ : Dev nD → PrngReg)

set_option maxHeartbeats 4000000 in
/-- The rows: the reference's second aggregation, gathering from the first call's result array. -/
theorem rows (c : Dev nD) : V3 m ρ c main_v39
    = Cert.ReferenceIdeal.Layers.agg1 (W2 m ρ c (Proc.devRef .tc main_v20)) (m ((c : Thread nD τ).loc main_arg3)) (m ((c : Thread nD τ).loc main_arg4)) := by
  show StableHlo.after hostOps1 (W2 m ρ c) (Proc.devRef .tc main_v39) = _
  dsimp only [hostOps1]
  after_results
  rw [W2_main_arg3 m ρ c, W2_main_arg4 m ρ c]
  rfl

/-- The bias row: the launched bias vector as the one row of a 1 x 128 matrix. -/
theorem bias (c : Dev nD) : V3 m ρ c main_v40 = biasRow (N := 128) (m ((c : Thread nD τ).loc main_arg10)) := by
  show StableHlo.after hostOps1 (W2 m ρ c) (Proc.devRef .tc main_v40) = _
  dsimp only [hostOps1]
  after_results
  rw [W2_main_arg10 m ρ c]
  exact shapeCast_row (N := 128) (m ((c : Thread nD τ).loc main_arg10)) shapeCasts_S128_S1x128

/-- The weights: as launched. -/
theorem weights (c : Dev nD) : V3 m ρ c main_arg9 = m ((c : Thread nD τ).loc main_arg9) := by
  show StableHlo.after hostOps1 (W2 m ρ c) (Proc.devRef .tc main_arg9) = _
  dsimp only [hostOps1]
  after_results
  exact W2_main_arg9 m ρ c

end Cert.KernelIdeal.Stretch1

end
-- ==== Proof.Host2.lean ====
/-
  What the third pallas_call finds in its three operand arrays, at the extended reals: the host operations between
  the second and the third call, read off the contents the second call leaves. Its rows are the third mean aggregation
  — the reference's, operation for operation — of whatever the second call's result array holds, along the third
  layer's edges as launched; its weights are the argument as launched; its bias row is the bias vector as one row.
-/
import proofs.«159257_j18141941859038_1_alg».proof.Proof.Gen.KernelIdeal.Frame
import proofs.«159257_j18141941859038_1_alg».proof.Proof.RefLayers
import proofs.«159257_j18141941859038_1_alg».proof.Proof.KeptArgs
import Idealize.ShloMosaic.Lib.StableHlo.Run

set_option maxRecDepth 16384

noncomputable section

namespace Cert.KernelIdeal.Stretch2

open Cert.KernelIdeal Cert.KernelIdeal.Gen Cert.KernelIdeal.Kept
open Idealize.ShloMosaic Idealize.ShloMosaic.TcCoe Idealize.SL.Sem Idealize.ShloMosaic.StableHlo
open Cert.Lib.Dense

variable (m : (ℓ : Loc nD τ sig) → Buf (Elt Ideal) ℓ) (ρ : Dev nD → PrngReg)

set_option maxHeartbeats 4000000 in
/-- The rows: the reference's third aggregation, gathering from the second call's result array. -/
theorem rows (c : Dev nD) : V5 m ρ c main_v60
    = Cert.ReferenceIdeal.Layers.agg2 (W4 m ρ c (Proc.devRef .tc main_v41)) (m ((c : Thread nD τ).loc main_arg5)) (m ((c : Thread nD τ).loc main_arg6)) := by
  show StableHlo.after hostOps2 (W4 m ρ c) (Proc.devRef .tc main_v60) = _
  dsimp only [hostOps2]
  after_results
  rw [W4_main_arg5 m ρ c, W4_main_arg6 m ρ c]
  rfl

/-- The bias row: the launched bias vector as the one row of a 1 x 47 matrix. -/
theorem bias (c : Dev nD) : V5 m ρ c main_v61 = biasRow (N := 47) (m ((c : Thread nD τ).loc main_arg12)) := by
  show StableHlo.after hostOps2 (W4 m ρ c) (Proc.devRef .tc main_v61) = _
  dsimp only [hostOps2]
  after_results
  rw [W4_main_arg12 m ρ c]
  exact shapeCast_row (N := 47) (m ((c : Thread nD τ).loc main_arg12)) shapeCasts_S47_S1x47

/-- The weights: as launched. -/
theorem weights (c : Dev nD) : V5 m ρ c main_arg11 = m ((c : Thread nD τ).loc main_arg11) := by
  show StableHlo.after hostOps2 (W4 m ρ c) (Proc.devRef .tc main_arg11) = _
  dsimp only [hostOps2]
  after_results
  exact W4_main_arg11 m ρ c

end Cert.KernelIdeal.Stretch2

end
-- ==== Proof.KValue.lean ====
/-
  The kernel program's result, at the extended reals, as three layers over the launch memory. At each pallas_call's
  exit its result array is the (rectified) affine map of what the call found (Region0 … Region2); what it found is the
  shared mean aggregation of the previous call's result array, the launched weights and the launched bias as a row
  (the three stretches of host operations). Composed from the first call to the third, the array @main returns is the
  reference's own layered term of the argument arrays.
-/
import proofs.«159257_j18141941859038_1_alg».proof.Proof.Region0
import proofs.«159257_j18141941859038_1_alg».proof.Proof.Region1
import proofs.«159257_j18141941859038_1_alg».proof.Proof.Region2
import proofs.«159257_j18141941859038_1_alg».proof.Proof.Host0
import proofs.«159257_j18141941859038_1_alg».proof.Proof.Host1
import proofs.«159257_j18141941859038_1_alg».proof.Proof.Host2

set_option maxRecDepth 16384

noncomputable section

namespace Cert.KernelIdeal.Value

open Cert.KernelIdeal Cert.KernelIdeal.Gen
open Idealize.ShloMosaic Idealize.ShloMosaic.TcCoe Idealize.SL.Sem
open Cert.Lib.Dense Cert.Lib.Rectify
open Cert.ReferenceIdeal.Read (val_main_v18 val_main_v70)
open Cert.ReferenceIdeal.Layers (agg1 agg2)

variable (m : (ℓ : Loc nD τ sig) → Buf (Elt Ideal) ℓ) (ρ : Dev nD → PrngReg)

/-- After the first pallas_call its result array holds the first layer of the launched arguments. -/
theorem layer0 (c : Dev nD) : W2 m ρ c (Proc.devRef .tc main_v20)
    = relu (affine (M := 60000) (K := 256) (N := 128) (val_main_v18 (F := Ideal) (m ((c : Thread nD τ).loc main_arg0)) (m ((c : Thread nD τ).loc main_arg1)) (m ((c : Thread nD τ).loc main_arg2))) (m ((c : Thread nD τ).loc main_arg7)) (biasRow (m ((c : Thread nD τ).loc main_arg8)))) := by
  refine (show W2 m ρ c (Proc.devRef .tc main_v20) = (dat0 (V1 m ρ) c).arrAt 3 cfg0.N from W2_arr m ρ c 3).trans ?_
  rw [Region0.arr (V1 m ρ) c, Stretch0.rows m ρ c, Stretch0.weights m ρ c, Stretch0.bias m ρ c]

/-- After the second pallas_call its result array holds the second layer over the first. -/
theorem layer1 (c : Dev nD) : W4 m ρ c (Proc.devRef .tc main_v41)
    = relu (affine (M := 15000) (K := 128) (N := 128)
        (agg1 (relu (affine (M := 60000) (K := 256) (N := 128) (val_main_v18 (F := Ideal) (m ((c : Thread nD τ).loc main_arg0)) (m ((c : Thread nD τ).loc main_arg1)) (m ((c : Thread nD τ).loc main_arg2))) (m ((c : Thread nD τ).loc main_arg7)) (biasRow (m ((c : Thread nD τ).loc main_arg8)))))
          (m ((c : Thread nD τ).loc main_arg3)) (m ((c : Thread nD τ).loc main_arg4)))
        (m ((c : Thread nD τ).loc main_arg9)) (biasRow (m ((c : Thread nD τ).loc main_arg10)))) := by
  refine (show W4 m ρ c (Proc.devRef .tc main_v41) = (dat1 (V3 m ρ) c).arrAt 3 cfg1.N from W4_arr m ρ c 3).trans ?_
  rw [Region1.arr (V3 m ρ) c, Stretch1.rows m ρ c, Stretch1.weights m ρ c, Stretch1.bias m ρ c, layer0 m ρ c]

/-- The array @main returns is the reference's result term of the launched arguments. -/
theorem result (c : Dev nD) : W6 m ρ c (Proc.devRef .tc main_v62)
    = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (show W6 m ρ c (Proc.devRef .tc main_v62) = (dat2 (V5 m ρ) c).arrAt 3 cfg2.N from W6_arr m ρ c 3).trans ?_
  rw [Region2.arr (V5 m ρ) c, Stretch2.rows m ρ c, Stretch2.weights m ρ c, Stretch2.bias m ρ c, layer1 m ρ c]
  exact (Cert.ReferenceIdeal.Layers.result_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.Value

end
-- ==== Proof.lean ====
/-
  A three-layer graph network: each layer averages, into every destination node, the rows of the previous layer's
  output gathered along the layer's edges (a gather, a scatter-add, a division by the larger of the edge count and one),
  then applies an affine map, and the first two layers a rectifier. The kernel program and the reference run the very
  same host operations for the averaging; they differ only in who computes the affine map — the kernel program three
  pallas_calls (the first over ten blocks of 6000 rows, the other two over one block), each narrowing its operands to
  bf16 and multiplying into a zero accumulator, the reference a dot product. Over the extended reals a change of float
  format is the identity and both products are the same sum over the contracted axis, so, layer by layer, the two
  programs compute one function of the argument arrays:

    result = affine (mean₂ (relu (affine (mean₁ (relu (affine (mean₀ features src0 dst0) W1 b1)) src1 dst1) W2 b2)) src2 dst2) W3 b3,

  where meanₗ is layer l's averaging along its edges (in the modules: the reference's first aggregation stage, then
  `agg1` and `agg2` of Proof/RefLayers.lean) and b is the bias as a row.

  No law beyond reading both products as that sum is used, so the finiteness of the inputs is never opened.

  The frames of the two kernel programs are the generated ones; the reference's frame is its generated run with the
  result dropped; the ideal pass rewrote nothing, so `preserves` is `True`. For the value claim, the kernel program's
  run is the generated launch read once more at the result buffer (KRun), whose contents KValue unfolds to the
  reference's own result term; the reference's run is the generated one.
-/
import proofs.«159257_j18141941859038_1_alg».proof.Defs
import proofs.«159257_j18141941859038_1_alg».proof.Proof.Gen.Kernel
import proofs.«159257_j18141941859038_1_alg».proof.Proof.Gen.Kernel.Skeleton
import proofs.«159257_j18141941859038_1_alg».proof.Proof.Gen.Kernel.Launch
import proofs.«159257_j18141941859038_1_alg».proof.Proof.Gen.Kernel.Points
import proofs.«159257_j18141941859038_1_alg».proof.Proof.Gen.Kernel.Frame
import proofs.«159257_j18141941859038_1_alg».proof.Proof.Gen.KernelIdeal
import proofs.«159257_j18141941859038_1_alg».proof.Proof.Gen.KernelIdeal.Skeleton
import proofs.«159257_j18141941859038_1_alg».proof.Proof.Gen.KernelIdeal.Launch
import proofs.«159257_j18141941859038_1_alg».proof.Proof.Gen.KernelIdeal.Points
import proofs.«159257_j18141941859038_1_alg».proof.Proof.Gen.KernelIdeal.Frame
import proofs.«159257_j18141941859038_1_alg».proof.Proof.Gen.ReferenceIdeal
import proofs.«159257_j18141941859038_1_alg».proof.Proof.Gen.Pre_finite_inputs
import proofs.«159257_j18141941859038_1_alg».proof.Proof.Gen.ReferenceIdeal.Run
import proofs.«159257_j18141941859038_1_alg».proof.Proof.Gen.ReferenceIdeal.Read
import proofs.«159257_j18141941859038_1_alg».proof.Proof.KRun
import proofs.«159257_j18141941859038_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result array at the reference's layered term of the argument arrays: the kernel
    program's by its launch read at the result buffer and the three layers composed, the reference's by its run; the
    memories agree on the arguments. -/
theorem algebraic : Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Value.result m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v70_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
